-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x16000 : Shape := ⟨3, ![8, 512, 16000]⟩
abbrev S_ : Shape := ⟨0, ![]⟩

class Facts : Prop where
  bcast_S_S8x512x16000 : S_.BroadcastsInDim S8x512x16000 (![] : Fin 0 → Fin S8x512x16000.rank)
  reducesTo_S8x512x16000_S_d0_1_2 : S8x512x16000.ReducesTo [0, 1, 2] S_
  h_S_ : 0 < S_.numel

variable [Facts]

def fn {F : FTy → Type} [FloatOps F] (main_arg0 : FVec F S8x512x16000 .f32) : IVec S_ 1 :=
  let main_v0 : FVec F S8x512x16000 .f32 := Host.absf main_arg0
  let main_cst : FVec F S_ .f32 := constant S_ .f32 0x7F800000#32
  let main_v1 : FVec F S8x512x16000 .f32 := broadcastInDim S8x512x16000 ![] bcast_S_S8x512x16000 main_cst
  let main_v2 : IVec S8x512x16000 1 := cmpf .olt main_v0 main_v1
  let main_c : IVec S_ 1 := constantI S_ 1 1#1
  let main_v3 : IVec S_ 1 := (fun x v => Host.reduce IntOp.andi x v reducesTo_S8x512x16000_S_d0_1_2 h_S_) main_v2 main_c
  main_v3
-- ==== Kernel.lean ====
abbrev S8x512x16000 : Shape := ⟨3, ![8, 512, 16000]⟩
abbrev S8x4x128x16000 : Shape := ⟨4, ![8, 4, 128, 16000]⟩
abbrev S8x128x16000 : Shape := ⟨3, ![8, 128, 16000]⟩
abbrev S1x4x128x3200 : Shape := ⟨4, ![1, 4, 128, 3200]⟩
abbrev S1x128x3200 : Shape := ⟨3, ![1, 128, 3200]⟩
abbrev S3x128x128 : Shape := ⟨3, ![3, 128, 128]⟩
abbrev S1x1x128x3200 : Shape := ⟨4, ![1, 1, 128, 3200]⟩
abbrev S128x3200 : Shape := ⟨2, ![128, 3200]⟩
abbrev S1x128x1 : Shape := ⟨3, ![1, 128, 1]⟩
abbrev S128x1 : Shape := ⟨2, ![128, 1]⟩
abbrev S128x3199 : Shape := ⟨2, ![128, 3199]⟩
abbrev S1x128x2 : Shape := ⟨3, ![1, 128, 2]⟩
abbrev S128x2 : Shape := ⟨2, ![128, 2]⟩
abbrev S128x3198 : Shape := ⟨2, ![128, 3198]⟩
abbrev S1x128x3 : Shape := ⟨3, ![1, 128, 3]⟩
abbrev S128x3 : Shape := ⟨2, ![128, 3]⟩
abbrev S128x3197 : Shape := ⟨2, ![128, 3197]⟩

abbrev nBuf : Space → Nat
  | .hbm => 3
  | .vmem => 5
  | .smem => 0
  | _ => 0

abbrev bufTy : (tb : Table) → Fin (tcTables nBuf tb) → BufTy
  | .hbm, ⟨0, _⟩ => ⟨S8x512x16000, .f32⟩
  | .hbm, ⟨1, _⟩ => ⟨S8x4x128x16000, .f32⟩
  | .hbm, ⟨2, _⟩ => ⟨S8x128x16000, .f32⟩
  | .local _ .vmem, ⟨0, _⟩ => ⟨S1x4x128x3200, .f32⟩
  | .local _ .vmem, ⟨1, _⟩ => ⟨S1x4x128x3200, .f32⟩
  | .local _ .vmem, ⟨2, _⟩ => ⟨S1x128x3200, .f32⟩
  | .local _ .vmem, ⟨3, _⟩ => ⟨S1x128x3200, .f32⟩
  | .local _ .vmem, ⟨4, _⟩ => ⟨S3x128x128, .f32⟩
  | _, _ => ⟨S8x512x16000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x512x16000_S8x4x128x16000 : S8x512x16000.ShapeCasts S8x4x128x16000
  inb_S3x128x128_S3x128x128_0_0_0 : ∀ a, (![0, 0, 0] : Fin 3 → Nat) a + S3x128x128.size a ≤ S3x128x128.size a
  h_S3x128x128 : 0 < S3x128x128.numel
  shapeCasts_S3x128x128_S3x128x128 : S3x128x128.ShapeCasts S3x128x128
  inb_S1x4x128x3200_S1x1x128x3200_0_0_0_0 : ∀ a, (![0, 0, 0, 0] : Fin 4 → Nat) a + S1x1x128x3200.size a ≤ S1x4x128x3200.size a
  h_S1x1x128x3200 : 0 < S1x1x128x3200.numel
  shapeCasts_S1x1x128x3200_S128x3200 : S1x1x128x3200.ShapeCasts S128x3200
  inb_S1x4x128x3200_S1x1x128x3200_0_1_0_0 : ∀ a, (![0, 1, 0, 0] : Fin 4 → Nat) a + S1x1x128x3200.size a ≤ S1x4x128x3200.size a
  inb_S1x4x128x3200_S1x1x128x3200_0_2_0_0 : ∀ a, (![0, 2, 0, 0] : Fin 4 → Nat) a + S1x1x128x3200.size a ≤ S1x4x128x3200.size a
  inb_S1x4x128x3200_S1x1x128x3200_0_3_0_0 : ∀ a, (![0, 3, 0, 0] : Fin 4 → Nat) a + S1x1x128x3200.size a ≤ S1x4x128x3200.size a
  inb_S3x128x128_S1x128x1_0_0_127 : ∀ a, (![0, 0, 127] : Fin 3 → Nat) a + S1x128x1.size a ≤ S3x128x128.size a
  h_S1x128x1 : 0 < S1x128x1.numel
  shapeCasts_S1x128x1_S128x1 : S1x128x1.ShapeCasts S128x1
  slices_S128x3200_o0_0_S128x3199 : S128x3200.Slices ![0, 0] S128x3199
  concatenates_S128x1_S128x3199_S128x3200_d1 : Shape.Concatenates [S128x1, S128x3199] S128x3200 1
  inb_S3x128x128_S1x128x2_1_0_126 : ∀ a, (![1, 0, 126] : Fin 3 → Nat) a + S1x128x2.size a ≤ S3x128x128.size a
  h_S1x128x2 : 0 < S1x128x2.numel
  shapeCasts_S1x128x2_S128x2 : S1x128x2.ShapeCasts S128x2
  slices_S128x3200_o0_0_S128x3198 : S128x3200.Slices ![0, 0] S128x3198
  concatenates_S128x2_S128x3198_S128x3200_d1 : Shape.Concatenates [S128x2, S128x3198] S128x3200 1
  inb_S3x128x128_S1x128x3_2_0_125 : ∀ a, (![2, 0, 125] : Fin 3 → Nat) a + S1x128x3.size a ≤ S3x128x128.size a
  h_S1x128x3 : 0 < S1x128x3.numel
  shapeCasts_S1x128x3_S128x3 : S1x128x3.ShapeCasts S128x3
  slices_S128x3200_o0_0_S128x3197 : S128x3200.Slices ![0, 0] S128x3197
  concatenates_S128x3_S128x3197_S128x3200_d1 : Shape.Concatenates [S128x3, S128x3197] S128x3200 1
  inb_S1x128x3200_S1x128x3200_0_0_0 : ∀ a, (![0, 0, 0] : Fin 3 → Nat) a + S1x128x3200.size a ≤ S1x128x3200.size a
  h_S1x128x3200 : 0 < S1x128x3200.numel
  shapeCasts_S1x128x3200_S128x3200 : S1x128x3200.ShapeCasts S128x3200
  shapeCasts_S128x3200_S1x128x3200 : S128x3200.ShapeCasts S1x128x3200
  slices_S128x3200_o0_3197_S128x3 : S128x3200.Slices ![0, 3197] S128x3
  inb_S3x128x128_S1x128x3_0_0_125 : ∀ a, (![0, 0, 125] : Fin 3 → Nat) a + S1x128x3.size a ≤ S3x128x128.size a
  shapeCasts_S128x3_S1x128x3 : S128x3.ShapeCasts S1x128x3
  inb_S3x128x128_S1x128x3_1_0_125 : ∀ a, (![1, 0, 125] : Fin 3 → Nat) a + S1x128x3.size a ≤ S3x128x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x128x3200.size a ≤ S8x4x128x16000.size a
  hwx0_0 : ∀ i : grid0.Coords, EltTy.bits .f32 = 32 ∨ (Rect.block (s := S8x4x128x16000) S1x4x128x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x3200.size a ≤ S8x128x16000.size a
  hwx0_1 : ∀ i : grid0.Coords, EltTy.bits .f32 = 32 ∨ (Rect.block (s := S8x128x16000) S1x128x3200.size (cc0_transform_1 i) (hinb0_1 i)).WholeWords (EltTy.packing .f32)

variable [Facts₀]

abbrev win0_0 : Pipeline.Window sig grid0 :=
  Pipeline.Window.ofSpec (Memref.whole main_v0) S1x4x128x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x3200.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x512x16000 : Shape := ⟨3, ![8, 512, 16000]⟩
abbrev S8x4x128x16000 : Shape := ⟨4, ![8, 4, 128, 16000]⟩
abbrev S8x1x128x16000 : Shape := ⟨4, ![8, 1, 128, 16000]⟩
abbrev S8x128x16000 : Shape := ⟨3, ![8, 128, 16000]⟩
abbrev S_ : Shape := ⟨0, ![]⟩
abbrev S8x128x16001 : Shape := ⟨3, ![8, 128, 16001]⟩
abbrev S8x128x16002 : Shape := ⟨3, ![8, 128, 16002]⟩
abbrev S8x128x16003 : Shape := ⟨3, ![8, 128, 16003]⟩

abbrev nBuf : Space → Nat
  | .hbm => 25
  | .vmem => 0
  | .smem => 0
  | _ => 0

abbrev bufTy : (tb : Table) → Fin (tcTables nBuf tb) → BufTy
  | .hbm, ⟨0, _⟩ => ⟨S8x512x16000, .f32⟩
  | .hbm, ⟨1, _⟩ => ⟨S8x4x128x16000, .f32⟩
  | .hbm, ⟨2, _⟩ => ⟨S8x1x128x16000, .f32⟩
  | .hbm, ⟨3, _⟩ => ⟨S8x128x16000, .f32⟩
  | .hbm, ⟨4, _⟩ => ⟨S8x1x128x16000, .f32⟩
  | .hbm, ⟨5, _⟩ => ⟨S8x128x16000, .f32⟩
  | .hbm, ⟨6, _⟩ => ⟨S_, .i32⟩
  | .hbm, ⟨7, _⟩ => ⟨S_, .f32⟩
  | .hbm, ⟨8, _⟩ => ⟨S8x128x16001, .f32⟩
  | .hbm, ⟨9, _⟩ => ⟨S8x128x16000, .f32⟩
  | .hbm, ⟨10, _⟩ => ⟨S8x128x16000, .f32⟩
  | .hbm, ⟨11, _⟩ => ⟨S8x1x128x16000, .f32⟩
  | .hbm, ⟨12, _⟩ => ⟨S8x128x16000, .f32⟩
  | .hbm, ⟨13, _⟩ => ⟨S_, .i32⟩
  | .hbm, ⟨14, _⟩ => ⟨S_, .f32⟩
  | .hbm, ⟨15, _⟩ => ⟨S8x128x16002, .f32⟩
  | .hbm, ⟨16, _⟩ => ⟨S8x128x16000, .f32⟩
  | .hbm, ⟨17, _⟩ => ⟨S8x128x16000, .f32⟩
  | .hbm, ⟨18, _⟩ => ⟨S8x1x128x16000, .f32⟩
  | .hbm, ⟨19, _⟩ => ⟨S8x128x16000, .f32⟩
  | .hbm, ⟨20, _⟩ => ⟨S_, .i32⟩
  | .hbm, ⟨21, _⟩ => ⟨S_, .f32⟩
  | .hbm, ⟨22, _⟩ => ⟨S8x128x16003, .f32⟩
  | .hbm, ⟨23, _⟩ => ⟨S8x128x16000, .f32⟩
  | .hbm, ⟨24, _⟩ => ⟨S8x128x16000, .f32⟩
  | _, _ => ⟨S8x512x16000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_call0_v0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_call1_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_call2_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S8x512x16000_S8x4x128x16000 : S8x512x16000.ShapeCasts S8x4x128x16000
  slices_S8x4x128x16000_S8x1x128x16000_0_0_0_0 : S8x4x128x16000.Slices ![0, 0, 0, 0] S8x1x128x16000
  shapeCasts_S8x1x128x16000_S8x128x16000 : S8x1x128x16000.ShapeCasts S8x128x16000
  slices_S8x4x128x16000_S8x1x128x16000_0_1_0_0 : S8x4x128x16000.Slices ![0, 1, 0, 0] S8x1x128x16000
  pads_S8x128x16000_S8x128x16001_000_000_100 : S8x128x16000.Pads (![0, 0, 1] : Fin 3 → Nat) ![0, 0, 0] ![0, 0, 0] S8x128x16001
  h_S_ : 0 < S_.numel
  slices_S8x128x16001_S8x128x16000_0_0_0 : S8x128x16001.Slices ![0, 0, 0] S8x128x16000
  slices_S8x4x128x16000_S8x1x128x16000_0_2_0_0 : S8x4x128x16000.Slices ![0, 2, 0, 0] S8x1x128x16000
  pads_S8x128x16000_S8x128x16002_000_000_200 : S8x128x16000.Pads (![0, 0, 2] : Fin 3 → Nat) ![0, 0, 0] ![0, 0, 0] S8x128x16002
  slices_S8x128x16002_S8x128x16000_0_0_0 : S8x128x16002.Slices ![0, 0, 0] S8x128x16000
  slices_S8x4x128x16000_S8x1x128x16000_0_3_0_0 : S8x4x128x16000.Slices ![0, 3, 0, 0] S8x1x128x16000
  pads_S8x128x16000_S8x128x16003_000_000_300 : S8x128x16000.Pads (![0, 0, 3] : Fin 3 → Nat) ![0, 0, 0] ![0, 0, 0] S8x128x16003
  slices_S8x128x16003_S8x128x16000_0_0_0 : S8x128x16003.Slices ![0, 0, 0] S8x128x16000

variable [Facts₀]

class Facts : Prop extends Facts₀ where

variable [Facts]
-- ==== Proof.Shifted.lean ====
/-
  One block of a delayed chunk.

  Inside one time tile of 3200 steps, chunk `k` delayed by `k` steps is the tile's own chunk moved right by `k`,
  with the `k` entries that fall off the front supplied by a carry — the last `k` time steps of the same chunk in the
  tile before (or the padding value, in a batch's first tile):

      shiftIn carry chunk c l = carry c l          for l < k,
                              = chunk c (l - k)    for l ≥ k.
-/
import Mathlib.Data.Fin.Basic

namespace Cert.OverlapAdd

variable {α : Type}

/-- The tile's chunk moved right by `k` steps, its first `k` entries taken from the carry. -/
def shiftIn {k : Nat} (carry : Fin 128 → Fin k → α) (chunk : Fin 128 → Fin 3200 → α) (c : Fin 128) (l : Fin 3200) : α :=
  if h : l.val < k then carry c ⟨l.val, h⟩ else chunk c ⟨l.val - k, lt_of_le_of_lt (Nat.sub_le _ _) l.isLt⟩

theorem shiftIn_of_lt {k : Nat} (carry : Fin 128 → Fin k → α) (chunk : Fin 128 → Fin 3200 → α) (c : Fin 128) (l : Fin 3200)
    (h : l.val < k) : shiftIn carry chunk c l = carry c ⟨l.val, h⟩ := by
  unfold shiftIn; rw [dif_pos h]

theorem shiftIn_of_ge {k : Nat} (carry : Fin 128 → Fin k → α) (chunk : Fin 128 → Fin 3200 → α) (c : Fin 128) (l : Fin 3200)
    (h : k ≤ l.val) (l' : Fin 3200) (hl : l'.val + k = l.val) : shiftIn carry chunk c l = chunk c l' := by
  unfold shiftIn; rw [dif_neg (Nat.not_lt.mpr h)]
  exact congrArg (chunk c) (Fin.ext (by show l.val - k = l'.val; omega))

end Cert.OverlapAdd
-- ==== Proof.Payload.lean ====
/-
  The block's value, element by element.

  The body adds chunk 0 and chunks 1, 2, 3, each moved right by k = 1, 2, 3 time steps inside the tile, the k entries
  that fall off the front supplied by a carry of width k. Read at channel c and time step l, each moved chunk is
  shiftIn carry chunk c l (the carry below k, the chunk k steps earlier from k on), and the block is the
  left-to-right sum of the four terms.
-/
import proofs.«152509_j19490561590070_1_alg».proof.Proof.Gen.KernelIdeal.Skeleton
import proofs.«152509_j19490561590070_1_alg».proof.Proof.Shifted
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx Cert.OverlapAdd

variable {F : FTy → Type} [FloatOps F]

/-- A [1,1,128,3200] block viewed as [128,3200] reads (c, l) at (0, 0, c, l). -/
theorem cast4_apply {α : Type} (v : S1x1x128x3200.Idx → α) (h : S1x1x128x3200.ShapeCasts S128x3200) (c : Fin 128) (l : Fin 3200) :
    shapeCast S128x3200 v h (ix2 c l) = v (ix4 (0 : Fin 1) (0 : Fin 1) c l) :=
  shapeCast_apply v h (ix2 c l) (ix4 (0 : Fin 1) (0 : Fin 1) c l) (by
    rw [Shape.rowMajor_val_four, Shape.rowMajor_val_two]
    show ((0 * 1 + 0) * 128 + c.val) * 3200 + l.val = c.val * 3200 + l.val
    omega)

/-- A [1,128,K] carry viewed as [128,K] reads (c, j) at (0, c, j). -/
theorem cast3_apply {α : Type} {K : Nat} (w : (⟨3, ![1, 128, K]⟩ : Shape).Idx → α)
    (h : (⟨3, ![1, 128, K]⟩ : Shape).ShapeCasts ⟨2, ![128, K]⟩) (c : Fin 128) (j : Fin K) :
    shapeCast (⟨2, ![128, K]⟩ : Shape) w h (ix2 c j) = w (ix3 (0 : Fin 1) c j) :=
  shapeCast_apply w h (ix2 c j) (ix3 (0 : Fin 1) c j) (by
    rw [Shape.rowMajor_val_three, Shape.rowMajor_val_two]
    show (0 * 128 + c.val) * K + j.val = c.val * K + j.val
    rw [Nat.zero_mul, Nat.zero_add])

/-- The concatenation along time of a width-K carry and the first R = 3200 - K time steps of a chunk, read at (c, l),
    is the chunk moved right by K with the carry in front: the carry at l below K, the chunk at l - K from K on. -/
theorem shifted_apply {α : Type} {K R : Nat} (hKR : K + R = 3200)
    (v : S1x1x128x3200.Idx → α) (w : (⟨3, ![1, 128, K]⟩ : Shape).Idx → α)
    (h1 : (⟨3, ![1, 128, K]⟩ : Shape).ShapeCasts ⟨2, ![128, K]⟩)
    (h2 : S1x1x128x3200.ShapeCasts S128x3200)
    (h3 : S128x3200.Slices ![0, 0] ⟨2, ![128, R]⟩)
    (h4 : Shape.Concatenates [(⟨2, ![128, K]⟩ : Shape), ⟨2, ![128, R]⟩] S128x3200 1)
    (c : Fin 128) (l : Fin 3200) :
    concatenate S128x3200 1
        [⟨(⟨2, ![128, K]⟩ : Shape), shapeCast (⟨2, ![128, K]⟩ : Shape) w h1⟩,
         ⟨(⟨2, ![128, R]⟩ : Shape), extractStridedSlice (⟨2, ![128, R]⟩ : Shape) ![0, 0] (shapeCast S128x3200 v h2) h3⟩] h4 (ix2 c l)
      = shiftIn (fun c j => w (ix3 (0 : Fin 1) c j)) (fun c l => v (ix4 (0 : Fin 1) (0 : Fin 1) c l)) c l := by
  by_cases hl : l.val < K
  · -- below K: the first piece, the carry at (c, l)
    rw [shiftIn_of_lt _ _ c l hl]
    refine (concatenate_pair_apply_left 1 _ _ h4 (ix2 c l) rfl (ix2 c (⟨l.val, hl⟩ : Fin K)) (fun b => by
      match b with
      | ⟨0, _⟩ => rfl
      | ⟨1, _⟩ => rfl)).trans ?_
    exact cast3_apply w h1 c ⟨l.val, hl⟩
  · -- from K on: the second piece at time l - K, the chunk's slice from 0, that is the chunk at l - K
    have hge : K ≤ l.val := Nat.le_of_not_lt hl
    have hl' : l.val - K < 3200 := lt_of_le_of_lt (Nat.sub_le _ _) l.isLt
    have hlR : l.val - K < R := by have := l.isLt; omega
    rw [shiftIn_of_ge _ _ c l hge ⟨l.val - K, hl'⟩ (by show l.val - K + K = l.val; omega)]
    refine (concatenate_pair_apply_right 1 _ _ h4 (ix2 c l) rfl rfl (ix2 c (⟨l.val - K, hlR⟩ : Fin R))
      (fun b hb => by
        match b with
        | ⟨0, _⟩ => rfl
        | ⟨1, _⟩ => exact absurd rfl hb)
      (by show l.val - K + K = l.val; omega)).trans ?_
    refine (extractStridedSlice_apply ![0, 0] _ h3 (ix2 c (⟨l.val - K, hlR⟩ : Fin R)) (ix2 c (⟨l.val - K, hl'⟩ : Fin 3200))
      (fun a => by
        match a with
        | ⟨0, _⟩ => show c.val = 0 + c.val; omega
        | ⟨1, _⟩ => show l.val - K = 0 + (l.val - K); omega)).trans ?_
    exact cast4_apply v h2 c ⟨l.val - K, hl'⟩

/-- The block at channel c and time step l: chunk 0 plus the three moved chunks, added left to right. -/
theorem pay_apply (v3 v5 v7 v9 : Vec F S1x1x128x3200 .f32) (v11 : Vec F S1x128x1 .f32) (v16 : Vec F S1x128x2 .f32)
    (v21 : Vec F S1x128x3 .f32) (c : Fin 128) (l : Fin 3200) :
    k0_pay1 (k0_pay9 v3 v5 v7 v9 v11 v16 v21) (ix3 (0 : Fin 1) c l)
      = FloatOps.addf (FloatOps.addf (FloatOps.addf (v3 (ix4 (0 : Fin 1) (0 : Fin 1) c l))
          (shiftIn (fun c j => v11 (ix3 (0 : Fin 1) c j)) (fun c l => v5 (ix4 (0 : Fin 1) (0 : Fin 1) c l)) c l))
          (shiftIn (fun c j => v16 (ix3 (0 : Fin 1) c j)) (fun c l => v7 (ix4 (0 : Fin 1) (0 : Fin 1) c l)) c l))
          (shiftIn (fun c j => v21 (ix3 (0 : Fin 1) c j)) (fun c l => v9 (ix4 (0 : Fin 1) (0 : Fin 1) c l)) c l) := by
  unfold k0_pay1
  -- the stored [1,128,3200] view at (0, c, l) is the [128,3200] sum at (c, l)
  refine (shapeCast_apply _ _ (ix3 (0 : Fin 1) c l) (ix2 c l) (by
    rw [Shape.rowMajor_val_two, Shape.rowMajor_val_three]
    show c.val * 3200 + l.val = (0 * 128 + c.val) * 3200 + l.val
    omega)).trans ?_
  unfold k0_pay9 k0_pay6 k0_pay7 k0_pay8
  -- a sum of vectors at an index is the sum of the entries
  show FloatOps.addf (FloatOps.addf (FloatOps.addf (shapeCast S128x3200 v3 _ (ix2 c l)) (concatenate S128x3200 1 _ _ (ix2 c l)))
      (concatenate S128x3200 1 _ _ (ix2 c l))) (concatenate S128x3200 1 _ _ (ix2 c l)) = _
  rw [cast4_apply v3 _ c l]
  rw [shifted_apply (K := 1) (R := 3199) rfl v5 v11 _ _ _ _ c l,
      shifted_apply (K := 2) (R := 3198) rfl v7 v16 _ _ _ _ c l,
      shifted_apply (K := 3) (R := 3197) rfl v9 v21 _ _ _ _ c l]

end Cert.KernelIdeal.BlockValue
-- ==== Proof.Pieces.lean ====
/-
  What one run of the body leaves behind, read back as values.

  The body at a grid point loads the four chunks of its input block `x0 : [1, 4, 128, 3200]`, reads from the carry
  buffer `[3, 128, 128]` the last `k` columns of row `k - 1` (`k = 1, 2, 3`), stores the sum of chunk 0 and the three
  shifted chunks as its output block, and then overwrites columns 125‥127 of the carry's row `k - 1` with the last
  three time steps of chunk `k`. At a batch's first tile it first fills the carry with the zero value, so the carry
  entries it reads there are that value; at every other tile they are what the tile before left.

  Two facts are read off the stores each case's run found:
  * the output block is the body's arithmetic (`k0_pay1 ∘ k0_pay9`) of the four chunk loads and the three carry
    loads — of the zero fill in the first case, of the carry as found in the second (`out_first`, `out_next`);
  * afterwards, in BOTH cases, the carry's entry `[k, c, 125 + j]` is the block's `x0[0, k + 1, c, 3197 + j]`
    (`carry_first_tail`, `carry_next_tail`): the three tail stores are the newest writes there, whatever was below.
-/
import proofs.«152509_j19490561590070_1_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

namespace Cert.KernelIdeal.BlockValue

open Cert.KernelIdeal Cert.KernelIdeal.Gen
open Idealize.ShloMosaic Idealize.ShloMosaic.TcCoe Idealize.ShloMosaic.ValueIdx Idealize.SL.Sem

variable {F : FTy → Type} [FloatOps F]

theorem zero3 : (![0, 0, 0] : Fin 3 → Nat) = fun _ => 0 := funext fun a => by fin_cases a <;> rfl

/-- The last three time steps of a chunk, as the body cuts them out to store in the carry: entry `[0, c, j]` of the
    stored piece is the chunk's entry at time `3197 + j`. -/
theorem tail_apply (v : Vec F S1x1x128x3200 .f32) (c : Fin 128) (j : Fin 3) :
    shapeCast S1x128x3 (extractStridedSlice S128x3 ![0, 3197] (shapeCast S128x3200 v shapeCasts_S1x1x128x3200_S128x3200)
        slices_S128x3200_o0_3197_S128x3) shapeCasts_S128x3_S1x128x3 (ix3 (0 : Fin 1) c j)
      = v (ix4 (0 : Fin 1) (0 : Fin 1) c (⟨3197 + j.val, by have := j.isLt; omega⟩ : Fin 3200)) := by
  have hc : c.val < 128 := c.isLt
  have hj : j.val < 3 := j.isLt
  refine (shapeCast_apply _ _ (ix3 (0 : Fin 1) c j) (ix2 c j) (by
    rw [Shape.rowMajor_val_two, Shape.rowMajor_val_three]
    show c.val * 3 + j.val = (0 * 128 + c.val) * 3 + j.val; omega)).trans ?_
  refine (extractStridedSlice_apply _ _ _ (ix2 c j) (ix2 c (⟨3197 + j.val, by omega⟩ : Fin 3200)) (fun a => by
    match a with
    | ⟨0, _⟩ => show c.val = 0 + c.val; omega
    | ⟨1, _⟩ => show 3197 + j.val = 3197 + j.val; rfl)).trans ?_
  exact shapeCast_apply _ _ (ix2 c (⟨3197 + j.val, by omega⟩ : Fin 3200))
    (ix4 (0 : Fin 1) (0 : Fin 1) c (⟨3197 + j.val, by omega⟩ : Fin 3200)) (by
    rw [Shape.rowMajor_val_four, Shape.rowMajor_val_two]
    show ((0 * 1 + 0) * 128 + c.val) * 3200 + (3197 + j.val) = c.val * 3200 + (3197 + j.val); omega)

/-- A load of chunk `k` of the input block reads the block at chunk coordinate `k`. -/
theorem chunk_ld_apply (x0 : Vec F S1x4x128x3200 .f32) (k : Fin 4) (off : Fin 4 → Nat) (hoff : off = ![0, k.val, 0, 0])
    (inb : ∀ a, off a + (![1, 1, 128, 3200] : Fin 4 → Nat) a ≤ S1x4x128x3200.size a) (c : Fin 128) (l : Fin 3200) :
    View.ld x0 (Rect.unit (s := S1x4x128x3200) off ![1, 1, 128, 3200] inb) (ix4 (0 : Fin 1) (0 : Fin 1) c l)
      = x0 (ix4 (0 : Fin 1) k c l) := by
  subst hoff
  show x0 ((Rect.unit (s := S1x4x128x3200) ![0, k.val, 0, 0] ![1, 1, 128, 3200] inb).emb (ix4 (0 : Fin 1) (0 : Fin 1) c l)) = _
  refine congrArg x0 (funext fun a => Fin.ext ?_)
  match a with
  | ⟨0, _⟩ => show 0 + 1 * 0 = 0; rfl
  | ⟨1, _⟩ => show k.val + 1 * 0 = k.val; omega
  | ⟨2, _⟩ => show 0 + 1 * c.val = c.val; omega
  | ⟨3, _⟩ => show 0 + 1 * l.val = l.val; omega

/-- A load of `w` columns of one carry row reads the carry at that row and the columns from `o` on. -/
theorem carry_ld_apply {w : Nat} (xs : Vec F S3x128x128 .f32) (r : Fin 3) (o : Nat) (how : o + w ≤ 128)
    (inb : ∀ a, (![r.val, 0, o] : Fin 3 → Nat) a + (![1, 128, w] : Fin 3 → Nat) a ≤ S3x128x128.size a) (c : Fin 128) (j : Fin w) :
    View.ld xs (Rect.unit (s := S3x128x128) ![r.val, 0, o] ![1, 128, w] inb) (ix3 (0 : Fin 1) c j)
      = xs (ix3 r c (⟨o + j.val, by have := j.isLt; omega⟩ : Fin 128)) := by
  show xs ((Rect.unit (s := S3x128x128) ![r.val, 0, o] ![1, 128, w] inb).emb (ix3 (0 : Fin 1) c j)) = _
  refine congrArg xs (funext fun a => Fin.ext ?_)
  match a with
  | ⟨0, _⟩ => show r.val + 1 * 0 = r.val; omega
  | ⟨1, _⟩ => show 0 + 1 * c.val = c.val; omega
  | ⟨2, _⟩ => show o + 1 * j.val = o + j.val; omega

/-- The three tail stores, newest first, over any earlier contents `f` of the carry: entry `[k, c, 125 + j]` reads
    the store for row `k`, which holds chunk `k + 1`'s time step `3197 + j`. The rows keep the three stores apart. -/
theorem tails_apply (v : View sig .tc .vmem S3x128x128 .f32) (f : v.ty.Contents (Elt F)) (x0 : Vec F S1x4x128x3200 .f32)
    (L : List (View.Piece (Elt F) S3x128x128 .f32)) (k : Fin 3) (ch : Fin 128) (j : Fin 3) :
    View.read (Elt F) v (v.writes (Elt F) f
        ((⟨Rect.unit ![2, 0, 125] ![1, 128, 3] inb_S3x128x128_S1x128x3_2_0_125,
            k0_pay4 (k0_pay8 (View.ld x0 (Rect.unit (s := S1x4x128x3200) ![0, 3, 0, 0] ![1, 1, 128, 3200] inb_S1x4x128x3200_S1x1x128x3200_0_3_0_0)))⟩ : View.Piece (Elt F) S3x128x128 .f32)
          :: ⟨Rect.unit ![1, 0, 125] ![1, 128, 3] inb_S3x128x128_S1x128x3_1_0_125,
            k0_pay3 (k0_pay7 (View.ld x0 (Rect.unit (s := S1x4x128x3200) ![0, 2, 0, 0] ![1, 1, 128, 3200] inb_S1x4x128x3200_S1x1x128x3200_0_2_0_0)))⟩
          :: ⟨Rect.unit ![0, 0, 125] ![1, 128, 3] inb_S3x128x128_S1x128x3_0_0_125,
            k0_pay2 (k0_pay6 (View.ld x0 (Rect.unit (s := S1x4x128x3200) ![0, 1, 0, 0] ![1, 1, 128, 3200] inb_S1x4x128x3200_S1x1x128x3200_0_1_0_0)))⟩
          :: L))
        (ix3 k ch (⟨125 + j.val, by have := j.isLt; omega⟩ : Fin 128))
      = x0 (ix4 (0 : Fin 1) (⟨k.val + 1, by have := k.isLt; omega⟩ : Fin 4) ch (⟨3197 + j.val, by have := j.isLt; omega⟩ : Fin 3200)) := by
  have hj : j.val < 3 := j.isLt
  match k with
  | ⟨0, _⟩ =>
    refine (View.read_writes_cons_unit_of_not_mem v f _ _ _ _ rfl (0 : Fin 3) (Or.inl (by show 0 < 2; omega))).trans ?_
    refine (View.read_writes_cons_unit_of_not_mem v f _ _ _ _ rfl (0 : Fin 3) (Or.inl (by show 0 < 1; omega))).trans ?_
    refine (View.read_writes_cons_unit_of_mem v f _ _ _ _ (ix3 (0 : Fin 1) ch j) rfl (fun a => by
      match a with
      | ⟨0, _⟩ => show 0 = 0 + 0; rfl
      | ⟨1, _⟩ => show ch.val = 0 + ch.val; omega
      | ⟨2, _⟩ => show 125 + j.val = 125 + j.val; rfl)).trans ?_
    exact (tail_apply _ ch j).trans (chunk_ld_apply x0 (1 : Fin 4) _ rfl _ ch _)
  | ⟨1, _⟩ =>
    refine (View.read_writes_cons_unit_of_not_mem v f _ _ _ _ rfl (0 : Fin 3) (Or.inl (by show 1 < 2; omega))).trans ?_
    refine (View.read_writes_cons_unit_of_mem v f _ _ _ _ (ix3 (0 : Fin 1) ch j) rfl (fun a => by
      match a with
      | ⟨0, _⟩ => show 1 = 1 + 0; rfl
      | ⟨1, _⟩ => show ch.val = 0 + ch.val; omega
      | ⟨2, _⟩ => show 125 + j.val = 125 + j.val; rfl)).trans ?_
    exact (tail_apply _ ch j).trans (chunk_ld_apply x0 (2 : Fin 4) _ rfl _ ch _)
  | ⟨2, _⟩ =>
    refine (View.read_writes_cons_unit_of_mem v f _ _ _ _ (ix3 (0 : Fin 1) ch j) rfl (fun a => by
      match a with
      | ⟨0, _⟩ => show 2 = 2 + 0; rfl
      | ⟨1, _⟩ => show ch.val = 0 + ch.val; omega
      | ⟨2, _⟩ => show 125 + j.val = 125 + j.val; rfl)).trans ?_
    exact (tail_apply _ ch j).trans (chunk_ld_apply x0 (3 : Fin 4) _ rfl _ ch _)

/-- The zero fill a batch's first tile stores into the whole carry. -/
abbrev zeroFill : Vec F S3x128x128 .f32 := k0_pay5

section Runs

variable (c : Dev nD) (i : grid0.Coords) (a2 : Memref sig .tc .vmem S1x4x128x3200 .f32) (h2 : a2.IsWhole)
  (a3 : Memref sig .tc .vmem S1x128x3200 .f32) (h3 : a3.IsWhole) (a4 : Memref sig .tc .vmem S3x128x128 .f32) (h4 : a4.IsWhole)

/-- A batch's FIRST tile: the output block is the body's sum of the four chunk loads, the carry entries it reads
    being those of the zero fill stored just before. -/
theorem out_first (hc : cond0_0 i) (x0 : Vec F S1x4x128x3200 .f32) :
    out0_A_1 c i a2 h2 a3 h3 a4 h4 hc x0
      = k0_pay1 (k0_pay9
          (View.ld x0 (Rect.unit (s := S1x4x128x3200) ![0, 0, 0, 0] ![1, 1, 128, 3200] inb_S1x4x128x3200_S1x1x128x3200_0_0_0_0))
          (View.ld x0 (Rect.unit (s := S1x4x128x3200) ![0, 1, 0, 0] ![1, 1, 128, 3200] inb_S1x4x128x3200_S1x1x128x3200_0_1_0_0))
          (View.ld x0 (Rect.unit (s := S1x4x128x3200) ![0, 2, 0, 0] ![1, 1, 128, 3200] inb_S1x4x128x3200_S1x1x128x3200_0_2_0_0))
          (View.ld x0 (Rect.unit (s := S1x4x128x3200) ![0, 3, 0, 0] ![1, 1, 128, 3200] inb_S1x4x128x3200_S1x1x128x3200_0_3_0_0))
          (View.ld (zeroFill (F := F)) (Rect.unit (s := S3x128x128) ![0, 0, 127] ![1, 128, 1] inb_S3x128x128_S1x128x1_0_0_127))
          (View.ld (zeroFill (F := F)) (Rect.unit (s := S3x128x128) ![1, 0, 126] ![1, 128, 2] inb_S3x128x128_S1x128x2_1_0_126))
          (View.ld (zeroFill (F := F)) (Rect.unit (s := S3x128x128) ![2, 0, 125] ![1, 128, 3] inb_S3x128x128_S1x128x3_2_0_125))) := by
  have hcov : ∀ y : S3x128x128.Idx, ∃ p ∈ [(⟨Rect.unit ![0, 0, 0] S3x128x128.size inb_S3x128x128_S3x128x128_0_0_0, k0_pay5 (F := F)⟩ : View.Piece (Elt F) S3x128x128 .f32)], y ∈ p.1.set :=
    fun y => ⟨_, List.mem_singleton_self _, View.mem_set_unit_zero zero3 inb_S3x128x128_S3x128x128_0_0_0 y⟩
  unfold out0_A_1
  rw [View.read_writes_eq_canon _ _ _ (cover0_A_1 c i a2 h2 a3 h3 a4 h4 hc x0)]
  unfold kernelRun0_A
  dsimp only
  sl_unfold_words
  rw [View.canon_unit_zero (S := S1x128x3200) zero3]
  rw [View.readCov_eq_canon_ld _ _ _ hcov, View.readCov_eq_canon_ld _ _ _ hcov, View.readCov_eq_canon_ld _ _ _ hcov,
    View.canon_unit_zero (S := S3x128x128) zero3]
  simp only [View.readAt_eq_ld, h2.read_unread]

/-- Every LATER tile: the same sum, the carry entries read from the carry as the tile before left it. -/
theorem out_next (hc : ¬cond0_0 i) (x0 : Vec F S1x4x128x3200 .f32) (xs0 : Vec F S3x128x128 .f32) :
    out0_B_1 c i a2 h2 a3 h3 a4 h4 hc x0 xs0
      = k0_pay1 (k0_pay9
          (View.ld x0 (Rect.unit (s := S1x4x128x3200) ![0, 0, 0, 0] ![1, 1, 128, 3200] inb_S1x4x128x3200_S1x1x128x3200_0_0_0_0))
          (View.ld x0 (Rect.unit (s := S1x4x128x3200) ![0, 1, 0, 0] ![1, 1, 128, 3200] inb_S1x4x128x3200_S1x1x128x3200_0_1_0_0))
          (View.ld x0 (Rect.unit (s := S1x4x128x3200) ![0, 2, 0, 0] ![1, 1, 128, 3200] inb_S1x4x128x3200_S1x1x128x3200_0_2_0_0))
          (View.ld x0 (Rect.unit (s := S1x4x128x3200) ![0, 3, 0, 0] ![1, 1, 128, 3200] inb_S1x4x128x3200_S1x1x128x3200_0_3_0_0))
          (View.ld xs0 (Rect.unit (s := S3x128x128) ![0, 0, 127] ![1, 128, 1] inb_S3x128x128_S1x128x1_0_0_127))
          (View.ld xs0 (Rect.unit (s := S3x128x128) ![1, 0, 126] ![1, 128, 2] inb_S3x128x128_S1x128x2_1_0_126))
          (View.ld xs0 (Rect.unit (s := S3x128x128) ![2, 0, 125] ![1, 128, 3] inb_S3x128x128_S1x128x3_2_0_125))) := by
  unfold out0_B_1
  rw [View.read_writes_eq_canon _ _ _ (cover0_B_1 c i a2 h2 a3 h3 a4 h4 hc x0 xs0)]
  unfold kernelRun0_B
  dsimp only
  sl_unfold_words
  rw [View.canon_unit_zero (S := S1x128x3200) zero3]
  simp only [View.readAt_eq_ld, h2.read_unread, h4.read_unread]

/-- After a batch's FIRST tile the carry's entry `[k, c, 125 + j]` is this tile's chunk `k + 1` at time `3197 + j`:
    the three tail stores sit above the zero fill. -/
theorem carry_first_tail (hc : cond0_0 i) (x0 : Vec F S1x4x128x3200 .f32) (k : Fin 3) (ch : Fin 128) (j : Fin 3) :
    sout0_A_0 c i a2 h2 a3 h3 a4 h4 hc x0 (ix3 k ch (⟨125 + j.val, by have := j.isLt; omega⟩ : Fin 128))
      = x0 (ix4 (0 : Fin 1) (⟨k.val + 1, by have := k.isLt; omega⟩ : Fin 4) ch (⟨3197 + j.val, by have := j.isLt; omega⟩ : Fin 3200)) := by
  unfold sout0_A_0 kernelRun0_A
  dsimp only
  sl_unfold_words
  simp only [View.readAt_eq_ld, h2.read_unread]
  exact tails_apply VS0_0 VS0_0.junk x0 _ k ch j

/-- After every LATER tile the same: the three tail stores sit above whatever the tile before left. -/
theorem carry_next_tail (hc : ¬cond0_0 i) (x0 : Vec F S1x4x128x3200 .f32) (xs0 : Vec F S3x128x128 .f32)
    (k : Fin 3) (ch : Fin 128) (j : Fin 3) :
    sout0_B_0 c i a2 h2 a3 h3 a4 h4 hc x0 xs0 (ix3 k ch (⟨125 + j.val, by have := j.isLt; omega⟩ : Fin 128))
      = x0 (ix4 (0 : Fin 1) (⟨k.val + 1, by have := k.isLt; omega⟩ : Fin 4) ch (⟨3197 + j.val, by have := j.isLt; omega⟩ : Fin 3200)) := by
  unfold sout0_B_0 kernelRun0_B
  dsimp only
  sl_unfold_words
  simp only [View.readAt_eq_ld, h2.read_unread]
  exact tails_apply a4.view (h4.unread xs0) x0 [] k ch j

end Runs

end Cert.KernelIdeal.BlockValue

end
-- ==== Proof.Delayed.lean ====
/-
  The overlap-add recurrence as ONE function of the four channel chunks.

  The input `x : [8, 512, 16000]` is read as four chunks of 128 channels, `x4 : [8, 4, 128, 16000]` (a reshape).
  The result at batch `b`, channel `c`, time `t` is

      y[b, c, t] = ((x4[b, 0, c, t] + d₁[b, c, t]) + d₂[b, c, t]) + d₃[b, c, t],

  where `dₖ` is chunk `k` DELAYED by `k` time steps: `dₖ[b, c, t] = x4[b, k, c, t - k]` for `t ≥ k` and the padding
  value `z` for the first `k` steps. The additions are kept in this order and `z` is a parameter, so the function is
  stated at any float instance; no law of arithmetic is used anywhere.
-/
import Idealize.ShloMosaic.Lib.ValueIdx

noncomputable section

namespace Cert.OverlapAdd

open Idealize.ShloMosaic Idealize.ShloMosaic.ValueIdx

/-- The four chunks: batch, chunk, channel, time. -/
abbrev Chunks : Shape := ⟨4, ![8, 4, 128, 16000]⟩
/-- The result: batch, channel, time. -/
abbrev Out : Shape := ⟨3, ![8, 128, 16000]⟩

variable {α : Type}

/-- Chunk `k` delayed by `k` time steps: at time `t ≥ k` the chunk's entry at `t - k`, before that the padding `z`. -/
def delayed (z : α) (x : Chunks.Idx → α) (k : Fin 4) (j : Out.Idx) : α :=
  if k.val ≤ (j 2).val then
    x (ix4 (j 0) k (j 1) (⟨(j 2).val - k.val, lt_of_le_of_lt (Nat.sub_le _ _) (j 2).isLt⟩ : Fin 16000))
  else z

theorem delayed_of_le (z : α) (x : Chunks.Idx → α) (k : Fin 4) (j : Out.Idx) (h : k.val ≤ (j 2).val) (i : Chunks.Idx)
    (h0 : (i 0).val = (j 0).val) (h1 : (i 1).val = k.val) (h2 : (i 2).val = (j 1).val)
    (h3 : (i 3).val + k.val = (j 2).val) : delayed z x k j = x i := by
  unfold delayed
  rw [if_pos h]
  refine congrArg x (funext fun a => Fin.ext ?_)
  match a with
  | ⟨0, _⟩ => exact h0.symm
  | ⟨1, _⟩ => exact h1.symm
  | ⟨2, _⟩ => exact h2.symm
  | ⟨3, _⟩ => show (j 2).val - k.val = (i 3).val; omega

theorem delayed_of_lt (z : α) (x : Chunks.Idx → α) (k : Fin 4) (j : Out.Idx) (h : (j 2).val < k.val) :
    delayed z x k j = z := by
  unfold delayed
  rw [if_neg (Nat.not_le.mpr h)]

variable {F : FTy → Type} [FloatOps F]

/-- The overlap-add of the four chunks, the sum taken first chunk to last. -/
def overlapAdd (z : F .f32) (x : Chunks.Idx → F .f32) : Out.Idx → F .f32 := fun j =>
  FloatOps.addf (FloatOps.addf (FloatOps.addf (x (ix4 (j 0) (0 : Fin 4) (j 1) (j 2))) (delayed z x 1 j)) (delayed z x 2 j))
    (delayed z x 3 j)

end Cert.OverlapAdd

end
-- ==== Proof.Tile.lean ====
/-
  One tile of the overlap-add.

  Fix a batch `b` and a tile starting at time `base` (a multiple of 3200). The kernel's input block `x0` holds the
  four chunks over the tile's 3200 time steps, `x0[0, k, c, l] = x4[b, k, c, base + l]`. If, for `k = 1, 2, 3`, the
  `k` carry entries the body reads are chunk `k` delayed by `k` at the tile's first `k` time steps — the padding
  value in a batch's first tile, the previous tile's last `k` time steps otherwise — then the block the body stores is
  the overlap-add of the four chunks at the tile's time steps: inside the tile, chunk `k` moved right by `k` with
  those carry entries in front IS chunk `k` delayed by `k` (`shifted_eq`), and the body adds the four terms in the
  specification's order (`block_apply`).
-/
import proofs.«152509_j19490561590070_1_alg».proof.Proof.Payload
import proofs.«152509_j19490561590070_1_alg».proof.Proof.Pieces
import proofs.«152509_j19490561590070_1_alg».proof.Proof.Delayed

noncomputable section

namespace Cert.KernelIdeal.BlockValue

open Cert.KernelIdeal Cert.KernelIdeal.Gen Cert.OverlapAdd
open Idealize.ShloMosaic Idealize.ShloMosaic.ValueIdx

variable {F : FTy → Type} [FloatOps F]

/-- Inside a tile, chunk `k` moved right by `K = k` steps with the right carry in front is chunk `k` delayed by `k`. -/
theorem shifted_eq {K : Nat} (z : F .f32) (x4 : Chunks.Idx → F .f32) (b : Fin 8) (base : Nat) (hbase : base + 3200 ≤ 16000)
    (k : Fin 4) (hk : k.val = K) (w : Fin 128 → Fin K → F .f32) (chunk : Fin 128 → Fin 3200 → F .f32)
    (hw : ∀ (ch : Fin 128) (j : Fin K) (hj : base + j.val < 16000),
      w ch j = delayed z x4 k (ix3 b ch (⟨base + j.val, hj⟩ : Fin 16000)))
    (hchunk : ∀ (ch : Fin 128) (l : Fin 3200), chunk ch l = x4 (ix4 b k ch (⟨base + l.val, by have := l.isLt; omega⟩ : Fin 16000)))
    (ch : Fin 128) (l : Fin 3200) :
    shiftIn w chunk ch l = delayed z x4 k (ix3 b ch (⟨base + l.val, by have := l.isLt; omega⟩ : Fin 16000)) := by
  have hl : l.val < 3200 := l.isLt
  by_cases h : l.val < K
  · rw [shiftIn_of_lt w chunk ch l h]
    exact hw ch ⟨l.val, h⟩ (by show base + l.val < 16000; omega)
  · have hge : K ≤ l.val := Nat.not_lt.mp h
    rw [shiftIn_of_ge w chunk ch l hge (⟨l.val - K, by omega⟩ : Fin 3200) (by show l.val - K + K = l.val; omega), hchunk]
    refine (delayed_of_le z x4 k _ (by show k.val ≤ base + l.val; omega) _ rfl rfl rfl ?_).symm
    show base + (l.val - K) + k.val = base + l.val
    omega

/-- THE TILE: the block the body stores, of an input block that holds the four chunks over the tile and of carry loads
    that hold the delayed chunks at the tile's first time steps, is the overlap-add at the tile's time steps. -/
theorem block_apply (z : F .f32) (x4 : Chunks.Idx → F .f32) (b : Fin 8) (base : Nat) (hbase : base + 3200 ≤ 16000)
    (x0 : Vec F S1x4x128x3200 .f32)
    (hx0 : ∀ (k : Fin 4) (ch : Fin 128) (l : Fin 3200),
      x0 (ix4 (0 : Fin 1) k ch l) = x4 (ix4 b k ch (⟨base + l.val, by have := l.isLt; omega⟩ : Fin 16000)))
    (v11 : Vec F S1x128x1 .f32) (v16 : Vec F S1x128x2 .f32) (v21 : Vec F S1x128x3 .f32)
    (h1 : ∀ (ch : Fin 128) (j : Fin 1) (hj : base + j.val < 16000),
      v11 (ix3 (0 : Fin 1) ch j) = delayed z x4 (1 : Fin 4) (ix3 b ch (⟨base + j.val, hj⟩ : Fin 16000)))
    (h2 : ∀ (ch : Fin 128) (j : Fin 2) (hj : base + j.val < 16000),
      v16 (ix3 (0 : Fin 1) ch j) = delayed z x4 (2 : Fin 4) (ix3 b ch (⟨base + j.val, hj⟩ : Fin 16000)))
    (h3 : ∀ (ch : Fin 128) (j : Fin 3) (hj : base + j.val < 16000),
      v21 (ix3 (0 : Fin 1) ch j) = delayed z x4 (3 : Fin 4) (ix3 b ch (⟨base + j.val, hj⟩ : Fin 16000)))
    (ch : Fin 128) (l : Fin 3200) :
    k0_pay1 (k0_pay9
        (View.ld x0 (Rect.unit (s := S1x4x128x3200) ![0, 0, 0, 0] ![1, 1, 128, 3200] inb_S1x4x128x3200_S1x1x128x3200_0_0_0_0))
        (View.ld x0 (Rect.unit (s := S1x4x128x3200) ![0, 1, 0, 0] ![1, 1, 128, 3200] inb_S1x4x128x3200_S1x1x128x3200_0_1_0_0))
        (View.ld x0 (Rect.unit (s := S1x4x128x3200) ![0, 2, 0, 0] ![1, 1, 128, 3200] inb_S1x4x128x3200_S1x1x128x3200_0_2_0_0))
        (View.ld x0 (Rect.unit (s := S1x4x128x3200) ![0, 3, 0, 0] ![1, 1, 128, 3200] inb_S1x4x128x3200_S1x1x128x3200_0_3_0_0))
        v11 v16 v21) (ix3 (0 : Fin 1) ch l)
      = overlapAdd z x4 (ix3 b ch (⟨base + l.val, by have := l.isLt; omega⟩ : Fin 16000)) := by
  have e0 := (chunk_ld_apply x0 (0 : Fin 4) ![0, 0, 0, 0] rfl inb_S1x4x128x3200_S1x1x128x3200_0_0_0_0 ch l).trans
    (hx0 (0 : Fin 4) ch l)
  have e1 := shifted_eq z x4 b base hbase (1 : Fin 4) rfl (fun c j => v11 (ix3 (0 : Fin 1) c j))
    (fun c l => View.ld x0 (Rect.unit (s := S1x4x128x3200) ![0, 1, 0, 0] ![1, 1, 128, 3200] inb_S1x4x128x3200_S1x1x128x3200_0_1_0_0)
      (ix4 (0 : Fin 1) (0 : Fin 1) c l)) h1
    (fun ch l => (chunk_ld_apply x0 (1 : Fin 4) ![0, 1, 0, 0] rfl inb_S1x4x128x3200_S1x1x128x3200_0_1_0_0 ch l).trans
      (hx0 (1 : Fin 4) ch l)) ch l
  have e2 := shifted_eq z x4 b base hbase (2 : Fin 4) rfl (fun c j => v16 (ix3 (0 : Fin 1) c j))
    (fun c l => View.ld x0 (Rect.unit (s := S1x4x128x3200) ![0, 2, 0, 0] ![1, 1, 128, 3200] inb_S1x4x128x3200_S1x1x128x3200_0_2_0_0)
      (ix4 (0 : Fin 1) (0 : Fin 1) c l)) h2
    (fun ch l => (chunk_ld_apply x0 (2 : Fin 4) ![0, 2, 0, 0] rfl inb_S1x4x128x3200_S1x1x128x3200_0_2_0_0 ch l).trans
      (hx0 (2 : Fin 4) ch l)) ch l
  have e3 := shifted_eq z x4 b base hbase (3 : Fin 4) rfl (fun c j => v21 (ix3 (0 : Fin 1) c j))
    (fun c l => View.ld x0 (Rect.unit (s := S1x4x128x3200) ![0, 3, 0, 0] ![1, 1, 128, 3200] inb_S1x4x128x3200_S1x1x128x3200_0_3_0_0)
      (ix4 (0 : Fin 1) (0 : Fin 1) c l)) h3
    (fun ch l => (chunk_ld_apply x0 (3 : Fin 4) ![0, 3, 0, 0] rfl inb_S1x4x128x3200_S1x1x128x3200_0_3_0_0 ch l).trans
      (hx0 (3 : Fin 4) ch l)) ch l
  refine (pay_apply _ _ _ _ v11 v16 v21 ch l).trans ?_
  exact congrArg₂ FloatOps.addf (congrArg₂ FloatOps.addf (congrArg₂ FloatOps.addf e0 e1) e2) e3

end Cert.KernelIdeal.BlockValue

end
-- ==== Proof.KernelValue.lean ====
/-
  The kernel's result array.

  The grid has 40 points, run in order: point `t` works on batch `t / 5` and time tile `t % 5` (time steps
  `3200 · (t % 5) + l`, `l < 3200`). Its input block is the four chunks over that tile (`xblk_apply`). The carry
  buffer after ANY point holds, in columns 125‥127 of row `k`, the last three time steps of that point's chunk
  `k + 1` (`carry_after`): both cases of the body end with those three stores. So at a batch's first tile
  (`t % 5 = 0`) the carry entries the body reads are the zero it has just filled in, which is chunk `k` delayed by `k`
  at times `< k`; and at a later tile they are the previous tile's last `k` time steps of chunk `k` — the previous
  point is the same batch's previous tile, because `t % 5 ≠ 0` — which is chunk `k` delayed by `k` at the tile's first
  `k` time steps. Either way the block the point stores is the overlap-add over its tile (`out_at`, by the tile lemma),
  the 40 blocks tile the result array (`cover`), and the array ends at the overlap-add of the four chunks (`final`).
-/
import proofs.«152509_j19490561590070_1_alg».proof.Proof.Gen.KernelIdeal.Value
import proofs.«152509_j19490561590070_1_alg».proof.Proof.Tile
import Idealize.ShloMosaic.Lib.Pipeline.Value
import Idealize.ShloMosaic.Lib.StableHlo.Run

set_option maxRecDepth 16384

noncomputable section

namespace Cert.KernelIdeal.OverlapValue

open Cert.KernelIdeal Cert.KernelIdeal.Gen Cert.KernelIdeal.BlockValue Cert.OverlapAdd
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The four chunks, as the region finds them. -/
abbrev chunks (c : Dev nD) : Vec F S8x4x128x16000 .f32 := V m c main_v0
/-- The input block at point `t`. -/
abbrev xblk (c : Dev nD) (t : Fin cfg0.N) : Vec F S1x4x128x3200 .f32 := iblk m c 0 t
/-- The value the kernel fills the carry with at a batch's first tile. -/
abbrev zero : F .f32 := Scalar.ofBits .f32 0x00000000#32

theorem lt40 (t : Fin cfg0.N) : t.val < 40 := lt_of_lt_of_eq t.isLt N_0

/-- The batch point `t` works on, -/
abbrev batchOf (t : Fin cfg0.N) : Fin 8 := ⟨t.val / 5, by have := lt40 t; omega⟩
/-- and the time step its tile's step `l` is. -/
abbrev timeOf (t : Fin cfg0.N) (l : Fin 3200) : Fin 16000 :=
  ⟨3200 * (t.val % 5) + l.val, by have := l.isLt; omega⟩

/-- The printed index maps, decided over the 40 points: block index (t / 5, 0, 0, t % 5) of the chunks, (t / 5, 0, t % 5)
    of the result. -/
theorem idx_facts : ∀ t : Fin cfg0.N,
    win0_0.index t (0 : Fin 4) = t.val / 5 ∧ win0_0.index t (1 : Fin 4) = 0 ∧ win0_0.index t (2 : Fin 4) = 0
    ∧ win0_0.index t (3 : Fin 4) = t.val % 5
    ∧ win0_1.index t (0 : Fin 3) = t.val / 5 ∧ win0_1.index t (1 : Fin 3) = 0 ∧ win0_1.index t (2 : Fin 3) = t.val % 5 :=
  (by decide +kernel : ∀ t : Fin grid0.N, _)

/-- The input block at point `t` holds the four chunks of batch `t / 5` over tile `t % 5`. -/
theorem xblk_apply (c : Dev nD) (t : Fin cfg0.N) (k : Fin 4) (ch : Fin 128) (l : Fin 3200) :
    xblk m c t (ix4 (0 : Fin 1) k ch l) = chunks m c (ix4 (batchOf t) k ch (timeOf t l)) := by
  obtain ⟨e0, e1, e2, e3, -, -, -⟩ := idx_facts t
  show V m c main_v0 (((cfg0.win 0).blk t).view.emb (ix4 (0 : Fin 1) k ch l)) = V m c main_v0 _
  refine congrArg (V m c main_v0) (funext fun a => Fin.ext ?_)
  match a with
  | ⟨0, _⟩ => show win0_0.index t (0 : Fin 4) * 1 + 1 * 0 = t.val / 5; rw [e0]; omega
  | ⟨1, _⟩ => show win0_0.index t (1 : Fin 4) * 4 + 1 * k.val = k.val; rw [e1]; omega
  | ⟨2, _⟩ => show win0_0.index t (2 : Fin 4) * 128 + 1 * ch.val = ch.val; rw [e2]; omega
  | ⟨3, _⟩ => show win0_0.index t (3 : Fin 4) * 3200 + 1 * l.val = 3200 * (t.val % 5) + l.val; rw [e3]; omega

/-- The zero fill at any entry is the zero value. -/
theorem zeroFill_apply (y : S3x128x128.Idx) : (zeroFill (F := F)) y = zero := by
  show shapeCast S3x128x128 (broadcast S3x128x128 (Scalar.ofBits .f32 0x00000000#32 : F .f32)) shapeCasts_S3x128x128_S3x128x128 y = _
  rw [shapeCast_self]
  rfl

/-- AFTER ANY POINT the carry's entry `[k, c, 125 + j]` is that point's chunk `k + 1` at its tile's step `3197 + j`:
    both cases of the body end with the three tail stores. -/
theorem carry_after (c : Dev nD) (t : Fin cfg0.N) (k : Fin 3) (ch : Fin 128) (j : Fin 3) :
    (outsAt0 m c t.val t.isLt).2 (ix3 k ch (⟨125 + j.val, by have := j.isLt; omega⟩ : Fin 128))
      = chunks m c (ix4 (batchOf t) (⟨k.val + 1, by have := k.isLt; omega⟩ : Fin 4) ch
          (timeOf t (⟨3197 + j.val, by have := j.isLt; omega⟩ : Fin 3200))) := by
  by_cases h0 : t.val % 5 = 0
  · rw [outsAt0_A m c t h0]; dsimp only
    exact (carry_first_tail c (grid0.coords t) (ms0_0 t) (hs0_0 t) (ms0_1 t) (hs0_1 t) scM0_0 (Memref.isWhole_whole _)
      ((hcond0_0 t).mpr h0) (xblk m c t) k ch j).trans (xblk_apply m c t _ ch _)
  · rw [outsAt0_B m c t h0]; dsimp only
    exact (carry_next_tail c (grid0.coords t) (ms0_0 t) (hs0_0 t) (ms0_1 t) (hs0_1 t) scM0_0 (Memref.isWhole_whole _)
      (fun h => h0 ((hcond0_0 t).mp h)) (xblk m c t) _ k ch j).trans (xblk_apply m c t _ ch _)

/-- What a LATER tile finds in the carry: the point before is the same batch's previous tile, so column `col ≥ 125` of
    row `k` is chunk `k + 1` at the time step `128 - col` before this tile's start. -/
theorem carry_before (c : Dev nD) (t : Fin cfg0.N) (h0 : ¬t.val % 5 = 0) (k : Fin 3) (ch : Fin 128) (col : Fin 128)
    (hcol : 125 ≤ col.val) :
    (outsAt0 m c (t.val - 1) (Nat.lt_of_le_of_lt (Nat.sub_le _ _) t.isLt)).2 (ix3 k ch col)
      = chunks m c (ix4 (batchOf t) (⟨k.val + 1, by have := k.isLt; omega⟩ : Fin 4) ch
          (⟨3200 * (t.val % 5) + col.val - 128, by have := col.isLt; omega⟩ : Fin 16000)) := by
  have ht := lt40 t
  have hc := col.isLt
  have e : ix3 k ch col = ix3 k ch (⟨125 + (col.val - 125), by omega⟩ : Fin 128) := by
    refine funext fun a => ?_
    match a with
    | ⟨0, _⟩ => rfl
    | ⟨1, _⟩ => rfl
    | ⟨2, _⟩ => exact Fin.ext (by show col.val = 125 + (col.val - 125); omega)
  rw [e]
  refine (carry_after m c (⟨t.val - 1, Nat.lt_of_le_of_lt (Nat.sub_le _ _) t.isLt⟩ : Fin cfg0.N) k ch
    (⟨col.val - 125, by omega⟩ : Fin 3)).trans ?_
  refine congrArg (chunks m c) (funext fun a => Fin.ext ?_)
  match a with
  | ⟨0, _⟩ => show (t.val - 1) / 5 = t.val / 5; omega
  | ⟨1, _⟩ => rfl
  | ⟨2, _⟩ => rfl
  | ⟨3, _⟩ => show 3200 * ((t.val - 1) % 5) + (3197 + (col.val - 125)) = 3200 * (t.val % 5) + col.val - 128; omega

/-- At a batch's FIRST tile the `K` carry entries the body reads are the zero it filled in: chunk `K` delayed by `K` at
    the tile's first `K` time steps, which lie before time `K`. -/
theorem carry_read_first (c : Dev nD) (t : Fin cfg0.N) (h0 : t.val % 5 = 0) {K : Nat} (r : Fin 3) (k : Fin 4) (hk : k.val = K)
    (o : Nat) (ho : o + K ≤ 128)
    (inb : ∀ a, (![r.val, 0, o] : Fin 3 → Nat) a + (![1, 128, K] : Fin 3 → Nat) a ≤ S3x128x128.size a)
    (ch : Fin 128) (j : Fin K) (hj : 3200 * (t.val % 5) + j.val < 16000) :
    View.ld (zeroFill (F := F)) (Rect.unit (s := S3x128x128) ![r.val, 0, o] ![1, 128, K] inb) (ix3 (0 : Fin 1) ch j)
      = delayed zero (chunks m c) k (ix3 (batchOf t) ch (⟨3200 * (t.val % 5) + j.val, hj⟩ : Fin 16000)) :=
  (carry_ld_apply zeroFill r o ho inb ch j).trans ((zeroFill_apply _).trans
    (delayed_of_lt zero (chunks m c) k _ (by have := j.isLt; show 3200 * (t.val % 5) + j.val < k.val; omega)).symm)

/-- At a LATER tile they are the previous tile's last `K` time steps of chunk `K`: chunk `K` delayed by `K` at the tile's
    first `K` time steps. -/
theorem carry_read_next (c : Dev nD) (t : Fin cfg0.N) (h0 : ¬t.val % 5 = 0) {K : Nat} (r : Fin 3) (k : Fin 4)
    (hr : r.val + 1 = K) (hk : k.val = K) (o : Nat) (ho : o + K = 128)
    (inb : ∀ a, (![r.val, 0, o] : Fin 3 → Nat) a + (![1, 128, K] : Fin 3 → Nat) a ≤ S3x128x128.size a)
    (ch : Fin 128) (j : Fin K) (hj : 3200 * (t.val % 5) + j.val < 16000) :
    View.ld (outsAt0 m c (t.val - 1) (Nat.lt_of_le_of_lt (Nat.sub_le _ _) t.isLt)).2
        (Rect.unit (s := S3x128x128) ![r.val, 0, o] ![1, 128, K] inb) (ix3 (0 : Fin 1) ch j)
      = delayed zero (chunks m c) k (ix3 (batchOf t) ch (⟨3200 * (t.val % 5) + j.val, hj⟩ : Fin 16000)) := by
  have hjK := j.isLt
  have hr3 := r.isLt
  refine (carry_ld_apply _ r o (by omega) inb ch j).trans ?_
  refine (carry_before m c t h0 r ch _ (by show 125 ≤ o + j.val; omega)).trans ?_
  refine (delayed_of_le zero (chunks m c) k _ (by show k.val ≤ 3200 * (t.val % 5) + j.val; omega) _ rfl ?_ rfl ?_).symm
  · show r.val + 1 = k.val; omega
  · show 3200 * (t.val % 5) + (o + j.val) - 128 + k.val = 3200 * (t.val % 5) + j.val; omega

/-- WHAT POINT `t` STORES: its output block at `[0, c, l]` is the overlap-add of the four chunks at batch `t / 5`, channel
    `c`, time `3200 · (t % 5) + l`. -/
theorem out_at (c : Dev nD) (t : Fin cfg0.N) (ch : Fin 128) (l : Fin 3200) :
    (outsAt0 m c t.val t.isLt).1 (ix3 (0 : Fin 1) ch l)
      = overlapAdd zero (chunks m c) (ix3 (batchOf t) ch (timeOf t l)) := by
  have ht := lt40 t
  have hb : 3200 * (t.val % 5) + 3200 ≤ 16000 := by omega
  by_cases h0 : t.val % 5 = 0
  · rw [outsAt0_A m c t h0]; dsimp only
    rw [out_first c (grid0.coords t) (ms0_0 t) (hs0_0 t) (ms0_1 t) (hs0_1 t) scM0_0 (Memref.isWhole_whole _)
      ((hcond0_0 t).mpr h0) (xblk m c t)]
    exact block_apply zero (chunks m c) (batchOf t) (3200 * (t.val % 5)) hb (xblk m c t) (fun k ch l => xblk_apply m c t k ch l)
      _ _ _
      (fun ch j hj => carry_read_first m c t h0 (0 : Fin 3) (1 : Fin 4) rfl 127 (by omega) inb_S3x128x128_S1x128x1_0_0_127 ch j hj)
      (fun ch j hj => carry_read_first m c t h0 (1 : Fin 3) (2 : Fin 4) rfl 126 (by omega) inb_S3x128x128_S1x128x2_1_0_126 ch j hj)
      (fun ch j hj => carry_read_first m c t h0 (2 : Fin 3) (3 : Fin 4) rfl 125 (by omega) inb_S3x128x128_S1x128x3_2_0_125 ch j hj)
      ch l
  · rw [outsAt0_B m c t h0]; dsimp only
    rw [out_next c (grid0.coords t) (ms0_0 t) (hs0_0 t) (ms0_1 t) (hs0_1 t) scM0_0 (Memref.isWhole_whole _)
      (fun h => h0 ((hcond0_0 t).mp h)) (xblk m c t)]
    exact block_apply zero (chunks m c) (batchOf t) (3200 * (t.val % 5)) hb (xblk m c t) (fun k ch l => xblk_apply m c t k ch l)
      _ _ _
      (fun ch j hj => carry_read_next m c t h0 (0 : Fin 3) (1 : Fin 4) rfl rfl 127 rfl inb_S3x128x128_S1x128x1_0_0_127 ch j hj)
      (fun ch j hj => carry_read_next m c t h0 (1 : Fin 3) (2 : Fin 4) rfl rfl 126 rfl inb_S3x128x128_S1x128x2_1_0_126 ch j hj)
      (fun ch j hj => carry_read_next m c t h0 (2 : Fin 3) (3 : Fin 4) rfl rfl 125 rfl inb_S3x128x128_S1x128x3_2_0_125 ch j hj)
      ch l

/-- WHAT POINT `t` WRITES BACK is block `t` of the overlap-add of the four chunks. -/
theorem flushed_eq (c : Dev nD) (t : Fin cfg0.N) :
    (dats m 0 c).flushed 1 t = ((cfg0.win 1).blk t).view.read (Elt F) (overlapAdd zero (chunks m c)) := by
  obtain ⟨-, -, -, -, e4, e5, e6⟩ := idx_facts t
  have e : (outsAt0 m c t.val t.isLt).1
      = fun y : S1x128x3200.Idx => overlapAdd zero (chunks m c) (ix3 (batchOf t) (y 1) (timeOf t (y 2))) := by
    funext y
    have hy : y = ix3 (0 : Fin 1) (y 1) (y 2) := by
      refine funext fun a => ?_
      match a with
      | ⟨0, _⟩ => exact Fin.ext (by have h1 : (y 0).val < 1 := (y 0).isLt; show (y 0).val = 0; omega)
      | ⟨1, _⟩ => rfl
      | ⟨2, _⟩ => rfl
    exact (congrArg (outsAt0 m c t.val t.isLt).1 hy).trans (out_at m c t (y 1) (y 2))
  rw [Value.flushed1, e]
  funext y
  show overlapAdd zero (chunks m c) (ix3 (batchOf t) (y 1) (timeOf t (y 2)))
    = overlapAdd zero (chunks m c) (((cfg0.win 1).blk t).view.emb y)
  refine congrArg (overlapAdd zero (chunks m c)) (funext fun a => Fin.ext ?_)
  have hy0 : (y 0).val < 1 := (y 0).isLt
  match a with
  | ⟨0, _⟩ => show t.val / 5 = win0_1.index t (0 : Fin 3) * 1 + 1 * (y 0).val; rw [e4]; omega
  | ⟨1, _⟩ => show (y 1).val = win0_1.index t (1 : Fin 3) * 128 + 1 * (y 1).val; rw [e5]; omega
  | ⟨2, _⟩ => show 3200 * (t.val % 5) + (y 2).val = win0_1.index t (2 : Fin 3) * 3200 + 1 * (y 2).val; rw [e6]; omega

/-- An index of the result array is in point `t`'s block iff each coordinate is in the block's range on its axis. -/
theorem mem_blk (t : Fin cfg0.N) (i : S8x128x16000.Idx) :
    i ∈ ((cfg0.win 1).blk t).view.set ↔ ∀ a : Fin 3, win0_1.index t a * S1x128x3200.size a ≤ (i a).val
      ∧ (i a).val < win0_1.index t a * S1x128x3200.size a + S1x128x3200.size a := by
  show i ∈ ((View.whole main_v1).slice (win0_1.rect t)).set ↔ _
  rw [View.set_slice_whole, Rect.mem_set_unit]
  exact Iff.rfl

/-- THE 40 BLOCKS TILE THE RESULT: entry `[b, c, T]` lies in the block of point `5 b + T / 3200`. -/
theorem cover (i : S8x128x16000.Idx) :
    ∃ t : Fin cfg0.N, (cfg0.win 1).flush t = true ∧ i ∈ ((cfg0.win 1).blk t).view.set := by
  have h0 : (i 0).val < 8 := (i 0).isLt
  have h1 : (i 1).val < 128 := (i 1).isLt
  have h2 : (i 2).val < 16000 := (i 2).isLt
  let t : Fin cfg0.N := ⟨5 * (i 0).val + (i 2).val / 3200, by rw [show cfg0.N = 40 from N_0]; omega⟩
  obtain ⟨-, -, -, -, e4, e5, e6⟩ := idx_facts t
  have hv : t.val = 5 * (i 0).val + (i 2).val / 3200 := rfl
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    rw [e4, hv]; omega
  | ⟨1, _⟩ =>
    show win0_1.index t (1 : Fin 3) * 128 ≤ (i 1).val ∧ (i 1).val < win0_1.index t (1 : Fin 3) * 128 + 128
    rw [e5]; omega
  | ⟨2, _⟩ =>
    show win0_1.index t (2 : Fin 3) * 3200 ≤ (i 2).val ∧ (i 2).val < win0_1.index t (2 : Fin 3) * 3200 + 3200
    rw [e6, hv]; omega

/-- THE RESULT ARRAY after the run is the overlap-add of the four chunks. -/
theorem final (c : Dev nD) : (dats m 0 c).arrAt 1 cfg0.N = overlapAdd zero (chunks m c) :=
  (dats m 0 c).arrAt_eq_of_cover 1 (overlapAdd zero (chunks m c)) (fun t _ => flushed_eq m c t) cover

/-- The four chunks the region finds are the argument reshaped: the one host operation before the region. -/
theorem chunks_eq (c : Dev nD) :
    chunks m c = shapeCast S8x4x128x16000 (m ((c : Thread nD τ).loc main_arg0)) shapeCasts_S8x512x16000_S8x4x128x16000 := by
  show (V m c main_v0 : S8x4x128x16000.Idx → Elt F .f32) = _
  dsimp only [Gen.V, Gen.hostOps0]
  after_results
  rfl

/-- The run, read: the result array at the overlap-add of the reshaped argument, the argument unchanged. -/
theorem run : θ_run defs (onTc (τ := τ) (main (F := F))) ⟨m, fun _ => 0, ρ⟩ fun r => ∀ c : Dev nD,
      r.2.mem ((c : Thread nD τ).loc main_v1)
        = overlapAdd zero (shapeCast S8x4x128x16000 (m ((c : Thread nD τ).loc main_arg0)) shapeCasts_S8x512x16000_S8x4x128x16000)
      ∧ r.2.mem ((c : Thread nD τ).loc main_arg0) = m ((c : Thread nD τ).loc main_arg0) :=
  (θ_run defs _ _).mono (fun r h c => ⟨(h c).1.trans ((final m c).trans (by rw [chunks_eq])), (h c).2⟩)
    (Value.run_blocks m ρ)

end Cert.KernelIdeal.OverlapValue

end
-- ==== Proof.RefValue.lean ====
/-
  The reference's result as ONE function of the four channel chunks.

  The reference reshapes its input to four chunks `x4 : [8, 4, 128, 16000]`, takes chunk 0 as it is and, for
  `k = 1, 2, 3`, chunk `k` padded with `k` copies of the padding value in front on the time axis and cut back to
  its first 16000 time steps, and adds the four arrays first to last. This file reads each of the four summands
  at an index: chunk 0 at `[b, c, t]` is `x4[b, 0, c, t]`, and the padded, cut chunk `k` at `[b, c, t]` is
  `x4[b, k, c, t - k]` for `t ≥ k` and the padding value for `t < k`, which is chunk `k` delayed by `k` steps.
  The padding value is the integer constant zero converted to a float. No law of arithmetic is used.
-/
import proofs.«152509_j19490561590070_1_alg».proof.Proof.Gen.ReferenceIdeal.Read
import proofs.«152509_j19490561590070_1_alg».proof.Proof.Delayed
import Idealize.ShloMosaic.Lib.KernelVsHost
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx

section PadCut
variable {α : Type}

/-- An array `y : [8, 128, 16000]` padded with `k` copies of the padding value in front on the time axis (to
    `m` time steps) and cut back to its first 16000 time steps: the entry at `[b, c, t]` is `y[b, c, t - k]` when
    `t ≥ k`, and the padding value when `t < k`. -/
theorem pad_front_cut_apply {m : Nat} (k : Nat) (y : S8x128x16000.Idx → α) {u : Shape} (v : u.Idx → α)
    (hp : S8x128x16000.Pads (![0, 0, k] : Fin 3 → Nat) ![0, 0, 0] ![0, 0, 0] ⟨3, ![8, 128, m]⟩) (hu : 0 < u.numel)
    (hsl : (⟨3, ![8, 128, m]⟩ : Shape).Slices ![0, 0, 0] S8x128x16000) (j : S8x128x16000.Idx) :
    extractStridedSlice S8x128x16000 ![0, 0, 0] (pad ⟨3, ![8, 128, m]⟩ ![0, 0, k] ![0, 0, 0] ![0, 0, 0] y v hp hu) hsl j
      = if h : k ≤ (j 2).val then
          y (ix3 (j 0) (j 1) (⟨(j 2).val - k, lt_of_le_of_lt (Nat.sub_le _ _) (j 2).isLt⟩ : Fin 16000))
        else v (Shape.Idx.first hu) := by
  have h2 : (j 2).val < 16000 := (j 2).isLt
  have hm : (j 2).val < m := by
    have e : (0 : Nat) + 16000 ≤ m := hsl.2 (2 : Fin 3)
    omega
  refine (extractStridedSlice_apply _ _ hsl j (ix3 (j 0) (j 1) (⟨(j 2).val, hm⟩ : Fin m)) (fun a => by
    match a with
    | ⟨0, _⟩ => show (j 0).val = 0 + (j 0).val; omega
    | ⟨1, _⟩ => show (j 1).val = 0 + (j 1).val; omega
    | ⟨2, _⟩ => show (j 2).val = 0 + (j 2).val; omega)).trans ?_
  by_cases h : k ≤ (j 2).val
  · rw [dif_pos h]
    exact pad_apply_of_inside _ _ _ y v hp hu _ _ (fun a => by
      match a with
      | ⟨0, _⟩ => show (j 0).val = 0 + (j 0).val * (0 + 1); omega
      | ⟨1, _⟩ => show (j 1).val = 0 + (j 1).val * (0 + 1); omega
      | ⟨2, _⟩ => show (j 2).val = k + ((j 2).val - k) * (0 + 1); omega)
  · rw [dif_neg h]
    exact pad_apply_of_not_inside _ _ _ y v hp hu _ (2 : Fin 3) (fun hin => by
      have e : k ≤ (j 2).val := hin.1
      exact h e)

end PadCut

variable {F : FTy → Type} [FloatOps F]

/-- Chunk 0, cut out of the four chunks and reshaped to `[8, 128, 16000]`: its entry at `[b, c, t]` is
    `x4[b, 0, c, t]`. -/
theorem chunk0_apply (x0 : (⟨S8x512x16000, .f32⟩ : BufTy).Contents (Elt F)) (j : S8x128x16000.Idx) :
    val_main_v2 (F := F) x0 j = val_main_v0 (F := F) x0 (ix4 (j 0) (0 : Fin 4) (j 1) (j 2)) := by
  rw [val_main_v2_apply, val_main_v1_apply]
  have h0 : (j 0).val < 8 := (j 0).isLt
  have h1 : (j 1).val < 128 := (j 1).isLt
  have h2 : (j 2).val < 16000 := (j 2).isLt
  refine congrArg (val_main_v0 (F := F) x0) (funext fun a => Fin.ext ?_)
  match a with
  | ⟨0, _⟩ => show (((j 0).val * 128 + (j 1).val) * 16000 + (j 2).val) / 2048000 = (j 0).val; omega
  | ⟨1, _⟩ => rfl
  | ⟨2, _⟩ => show (((j 0).val * 128 + (j 1).val) * 16000 + (j 2).val) / 16000 % 128 = (j 1).val; omega
  | ⟨3, _⟩ => show (((j 0).val * 128 + (j 1).val) * 16000 + (j 2).val) % 16000 = (j 2).val; omega

/-- Chunk 1 padded with one copy of the padding value in front on the time axis and cut back to 16000 time steps: its entry at
    `[b, c, t]` is `x4[b, 1, c, t - 1]` for `t ≥ 1` and the padding value for `t < 1`, that is, chunk 1 delayed by 1. -/
theorem shift1_apply (x0 : (⟨S8x512x16000, .f32⟩ : BufTy).Contents (Elt F)) (j : S8x128x16000.Idx) :
    val_main_v6 (F := F) x0 j
      = Cert.OverlapAdd.delayed (FloatOps.sitofp .f32 (0#32 : BitVec 32)) (val_main_v0 (F := F) x0) (1 : Fin 4) j := by
  have h0 : (j 0).val < 8 := (j 0).isLt
  have h1 : (j 1).val < 128 := (j 1).isLt
  have h2 : (j 2).val < 16000 := (j 2).isLt
  unfold val_main_v6 val_main_v5
  rw [pad_front_cut_apply]
  by_cases h : 1 ≤ (j 2).val
  · rw [dif_pos h, val_main_v4_apply, val_main_v3_apply]
    refine (Cert.OverlapAdd.delayed_of_le _ _ (1 : Fin 4) j h _ ?_ ?_ ?_ ?_).symm
    · show (((j 0).val * 128 + (j 1).val) * 16000 + ((j 2).val - 1)) / 2048000 = (j 0).val; omega
    · show 1 + 0 = 1; rfl
    · show (((j 0).val * 128 + (j 1).val) * 16000 + ((j 2).val - 1)) / 16000 % 128 = (j 1).val; omega
    · show (((j 0).val * 128 + (j 1).val) * 16000 + ((j 2).val - 1)) % 16000 + 1 = (j 2).val; omega
  · rw [dif_neg h]
    exact (Cert.OverlapAdd.delayed_of_lt _ _ (1 : Fin 4) j (Nat.not_le.mp h)).symm

/-- Chunk 2 padded with two copies of the padding value in front on the time axis and cut back to 16000 time steps: its entry at
    `[b, c, t]` is `x4[b, 2, c, t - 2]` for `t ≥ 2` and the padding value for `t < 2`, that is, chunk 2 delayed by 2. -/
theorem shift2_apply (x0 : (⟨S8x512x16000, .f32⟩ : BufTy).Contents (Elt F)) (j : S8x128x16000.Idx) :
    val_main_v11 (F := F) x0 j
      = Cert.OverlapAdd.delayed (FloatOps.sitofp .f32 (0#32 : BitVec 32)) (val_main_v0 (F := F) x0) (2 : Fin 4) j := by
  have h0 : (j 0).val < 8 := (j 0).isLt
  have h1 : (j 1).val < 128 := (j 1).isLt
  have h2 : (j 2).val < 16000 := (j 2).isLt
  unfold val_main_v11 val_main_v10
  rw [pad_front_cut_apply]
  by_cases h : 2 ≤ (j 2).val
  · rw [dif_pos h, val_main_v9_apply, val_main_v8_apply]
    refine (Cert.OverlapAdd.delayed_of_le _ _ (2 : Fin 4) j h _ ?_ ?_ ?_ ?_).symm
    · show (((j 0).val * 128 + (j 1).val) * 16000 + ((j 2).val - 2)) / 2048000 = (j 0).val; omega
    · show 2 + 0 = 2; rfl
    · show (((j 0).val * 128 + (j 1).val) * 16000 + ((j 2).val - 2)) / 16000 % 128 = (j 1).val; omega
    · show (((j 0).val * 128 + (j 1).val) * 16000 + ((j 2).val - 2)) % 16000 + 2 = (j 2).val; omega
  · rw [dif_neg h]
    exact (Cert.OverlapAdd.delayed_of_lt _ _ (2 : Fin 4) j (Nat.not_le.mp h)).symm

/-- Chunk 3 padded with three copies of the padding value in front on the time axis and cut back to 16000 time steps: its entry at
    `[b, c, t]` is `x4[b, 3, c, t - 3]` for `t ≥ 3` and the padding value for `t < 3`, that is, chunk 3 delayed by 3. -/
theorem shift3_apply (x0 : (⟨S8x512x16000, .f32⟩ : BufTy).Contents (Elt F)) (j : S8x128x16000.Idx) :
    val_main_v16 (F := F) x0 j
      = Cert.OverlapAdd.delayed (FloatOps.sitofp .f32 (0#32 : BitVec 32)) (val_main_v0 (F := F) x0) (3 : Fin 4) j := by
  have h0 : (j 0).val < 8 := (j 0).isLt
  have h1 : (j 1).val < 128 := (j 1).isLt
  have h2 : (j 2).val < 16000 := (j 2).isLt
  unfold val_main_v16 val_main_v15
  rw [pad_front_cut_apply]
  by_cases h : 3 ≤ (j 2).val
  · rw [dif_pos h, val_main_v14_apply, val_main_v13_apply]
    refine (Cert.OverlapAdd.delayed_of_le _ _ (3 : Fin 4) j h _ ?_ ?_ ?_ ?_).symm
    · show (((j 0).val * 128 + (j 1).val) * 16000 + ((j 2).val - 3)) / 2048000 = (j 0).val; omega
    · show 3 + 0 = 3; rfl
    · show (((j 0).val * 128 + (j 1).val) * 16000 + ((j 2).val - 3)) / 16000 % 128 = (j 1).val; omega
    · show (((j 0).val * 128 + (j 1).val) * 16000 + ((j 2).val - 3)) % 16000 + 3 = (j 2).val; omega
  · rw [dif_neg h]
    exact (Cert.OverlapAdd.delayed_of_lt _ _ (3 : Fin 4) j (Nat.not_le.mp h)).symm

/-- The reference's result is the overlap-add of the four chunks: at `[b, c, t]` it is
    `((x4[b, 0, c, t] + d₁[b, c, t]) + d₂[b, c, t]) + d₃[b, c, t]` with `dₖ` chunk `k` delayed by `k` time steps,
    the padding value being the integer zero converted to a float. -/
theorem result_eq (x0 : (⟨S8x512x16000, .f32⟩ : BufTy).Contents (Elt F)) :
    val_main_v17 (F := F) x0
      = Cert.OverlapAdd.overlapAdd (FloatOps.sitofp .f32 (0#32 : BitVec 32)) (val_main_v0 (F := F) x0) := by
  funext j
  rw [val_main_v17_apply, val_main_v12_apply, val_main_v7_apply, chunk0_apply, shift1_apply, shift2_apply, shift3_apply]
  rfl

end Cert.ReferenceIdeal.RefValue

end
-- ==== Proof.lean ====
/-
  A streaming overlap-add, tile by tile, against the whole-array recurrence.

  The input `x : [8, 512, 16000]` is four chunks of 128 channels, `x4 : [8, 4, 128, 16000]`. Both programs compute

      y[b, c, t] = ((x4[b, 0, c, t] + d₁) + d₂) + d₃,    dₖ = x4[b, k, c, t - k] for t ≥ k, zero for t < k,

  chunk `k` delayed by `k` time steps (Proof/Delayed.lean). The reference pads each chunk with `k` zeros in front along
  time and cuts it back (Proof/RefValue.lean). The kernel walks each batch in five tiles of 3200 time steps; inside a
  tile the delayed chunk is the tile's own chunk moved right by `k`, and the `k` entries that fall off the front come
  from a small carry that every tile refreshes with its last three time steps and a batch's first tile fills with zero
  (Proof/Shifted.lean, Proof/Payload.lean, Proof/Pieces.lean, Proof/Tile.lean, Proof/KernelValue.lean). The four terms
  are added in the same order on both sides, so the two results are the same expression of the input entry by entry:
  no law of arithmetic is needed and the finiteness of the input is never used. The only arithmetic fact is that the two
  spellings of the padding value — the float constant zero in the kernel, the integer zero converted in the reference
  — are both the real number zero.
-/
import proofs.«152509_j19490561590070_1_alg».proof.Defs
import proofs.«152509_j19490561590070_1_alg».proof.Proof.Gen.Kernel
import proofs.«152509_j19490561590070_1_alg».proof.Proof.Gen.Kernel.Skeleton
import proofs.«152509_j19490561590070_1_alg».proof.Proof.Gen.Kernel.Launch
import proofs.«152509_j19490561590070_1_alg».proof.Proof.Gen.Kernel.Points
import proofs.«152509_j19490561590070_1_alg».proof.Proof.Gen.Kernel.Frame
import proofs.«152509_j19490561590070_1_alg».proof.Proof.Gen.KernelIdeal
import proofs.«152509_j19490561590070_1_alg».proof.Proof.Gen.KernelIdeal.Skeleton
import proofs.«152509_j19490561590070_1_alg».proof.Proof.Gen.KernelIdeal.Launch
import proofs.«152509_j19490561590070_1_alg».proof.Proof.Gen.KernelIdeal.Points
import proofs.«152509_j19490561590070_1_alg».proof.Proof.Gen.KernelIdeal.Frame
import proofs.«152509_j19490561590070_1_alg».proof.Proof.Gen.ReferenceIdeal
import proofs.«152509_j19490561590070_1_alg».proof.Proof.Gen.Pre_finite_inputs
import proofs.«152509_j19490561590070_1_alg».proof.Proof.Gen.KernelIdeal.Value
import proofs.«152509_j19490561590070_1_alg».proof.Proof.Gen.ReferenceIdeal.Run
import proofs.«152509_j19490561590070_1_alg».proof.Proof.Gen.ReferenceIdeal.Read
import proofs.«152509_j19490561590070_1_alg».proof.Proof.KernelValue
import proofs.«152509_j19490561590070_1_alg».proof.Proof.RefValue
import Idealize.ShloMosaic.Lib.KernelVsHost
import Idealize.ShloMosaic.Adequacy
import Idealize.ShloMosaic.Init

noncomputable section

namespace Cert.Proof

open Idealize.ShloMosaic Idealize.SL.Sem

/-- Over the extended reals the reference's padding value, the integer zero converted to a float, and the kernel's, the
    float constant zero, are one number. -/
theorem padding_eq : (FloatOps.sitofp .f32 (0#32 : BitVec 32) : Ideal .f32) = (Scalar.ofBits .f32 0x00000000#32 : Ideal .f32) :=
  (sitofp_zero (φ := .f32)).trans Ideal.ofBits_zero_f32.symm

/-- The reference's result, as its run states it, is the overlap-add of the argument's four chunks with the kernel's
    padding value. -/
theorem reference_eq (x0 : (⟨Cert.ReferenceIdeal.S8x512x16000, .f32⟩ : BufTy).Contents (Elt Ideal)) :
    Cert.ReferenceIdeal.Read.val_main_v17 (F := Ideal) x0
      = Cert.OverlapAdd.overlapAdd (Scalar.ofBits .f32 0x00000000#32 : Ideal .f32)
          (shapeCast Cert.KernelIdeal.S8x4x128x16000 x0 Cert.KernelIdeal.Gen.shapeCasts_S8x512x16000_S8x4x128x16000) := by
  rw [Cert.ReferenceIdeal.RefValue.result_eq, padding_eq]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the overlap-add of the argument's four chunks: the kernel's result array tile by tile, the
    reference's by its padded and cut chunks; the arguments agree. -/
theorem algebraic : Cert.algebraic_KernelIdeal_ReferenceIdeal := by
  intro m ρ m' ρ' _ hagree
  refine ⟨_, Cert.KernelIdeal.OverlapValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v17_eq _).trans (reference_eq _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
